-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : IVec S16384 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S16384x1 : Shape := ⟨2, ![16384, 1]⟩
abbrev S8192x16384 : Shape := ⟨2, ![8192, 16384]⟩
abbrev S1024x1024 : Shape := ⟨2, ![1024, 1024]⟩
abbrev S1024x1 : Shape := ⟨2, ![1024, 1]⟩
abbrev S4x2048x16384 : Shape := ⟨3, ![4, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S8192x4096, .f32⟩
  | .hbm, ⟨5, _⟩ => ⟨S16384x1, .f32⟩
  | .hbm, ⟨6, _⟩ => ⟨S16384x1, .i32⟩
  | .hbm, ⟨7, _⟩ => ⟨S8192x16384, .f32⟩
  | .hbm, ⟨8, _⟩ => ⟨S4x2048x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1024x1, .i32⟩
  | .local _ .vmem, ⟨7, _⟩ => ⟨S1024x1, .i32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S8192x16384_S4x2048x16384 : S8192x16384.ShapeCasts S4x2048x16384
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .i32 = 32 ∨ (Rect.block (s := S16384x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x16384.size a
  hwx0_4 : ∀ i : grid0.Coords, EltTy.bits .f32 = 32 ∨ (Rect.block (s := S8192x16384) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384x4096, .f32⟩
  | .hbm, ⟨5, _⟩ => ⟨S16384, .f32⟩
  | .hbm, ⟨6, _⟩ => ⟨S16384x1, .f32⟩
  | .hbm, ⟨7, _⟩ => ⟨S16384x4096, .f32⟩
  | .hbm, ⟨8, _⟩ => ⟨S16384x4096, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Cases.lean ====
/-
  What each of the body's three control cases leaves behind, as values of the update `k0_pay2` (the accumulator plus the
  point's block product), for any float instance:
    first run of a tile (k = 0): the accumulator is reset to the zero block and then updated once;
    middle runs (k = 1, 2): the accumulator carried from the point before is updated;
    last run (k = 3): the same update, and the output block is the accumulator just written, read back.
  Each is the canonical form of that case's covering stores, every load reading a whole staging buffer.
-/
import proofs.«127448_j2362232013179_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle run: the carried accumulator `xs0`, updated with the point's blocks. -/
theorem scratch_mid (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x1024 .f32) (x1 : Vec F S1024x1024 .i32) (x2 : Vec F S1024x1 .f32) (x3 : Vec F S1024x1 .i32) (xs0 : Vec F S1024x1024 .f32) :
    sout0_B_0 c i arg3 harg3 arg4 harg4 arg5 harg5 arg6 harg6 arg7 harg7 arg8 harg8 hc0 hc1 x0 x1 x2 x3 xs0 = k0_pay2 x0 x1 x3 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S1024x1024) hz, View.ld_unit_zero (S := S1024x1) hz]

/-- The first run: the zero block, updated with the point's blocks (the reset is stored first and read back). -/
theorem scratch_first (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x1024 .f32) (x1 : Vec F S1024x1024 .i32) (x2 : Vec F S1024x1 .f32) (x3 : Vec F S1024x1 .i32) :
    sout0_A_0 c i arg3 harg3 arg4 harg4 arg5 harg5 arg6 harg6 arg7 harg7 arg8 harg8 hc0 hc1 x0 x1 x2 x3 = k0_pay2 x0 x1 x3 x2 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg8.read_unread, View.ld_unit_zero (S := S1024x1024) hz, View.ld_unit_zero (S := S1024x1) hz]

/-- The last run leaves the same update in the accumulator … -/
theorem scratch_last (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .i32) (x2 : Vec F S1024x1 .f32) (x3 : Vec F S1024x1 .i32) (xs0 : Vec F S1024x1024 .f32) :
    sout0_C_0 c i arg3 harg3 arg4 harg4 arg5 harg5 arg6 harg6 arg7 harg7 arg8 harg8 hc0 hc1 x0 x1 x2 x3 xs0 = k0_pay2 x0 x1 x3 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x1024) hz, View.ld_unit_zero (S := S1024x1) hz]

/-- … and copies it to the output block. -/
theorem out_last (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .i32) (x2 : Vec F S1024x1 .f32) (x3 : Vec F S1024x1 .i32) (xs0 : Vec F S1024x1024 .f32) :
    out0_C_4 c i arg3 harg3 arg4 harg4 arg5 harg5 arg6 harg6 arg7 harg7 arg8 harg8 hc0 hc1 x0 x1 x2 x3 xs0 = k0_pay2 x0 x1 x3 x2 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readCov_unit_zero (S := S1024x1024) _ hz, View.readAt_eq_ld, harg3.read_unread, harg4.read_unread, harg5.read_unread, harg6.read_unread, harg8.read_unread, View.ld_unit_zero (S := S1024x1024) hz, View.ld_unit_zero (S := S1024x1) hz]

end Cert.KernelIdeal.Cases

end
-- ==== Proof.Carry.lean ====
/-
  The accumulator point by point. Point `t` of the 8 × 16 × 4 grid updates the accumulator with its four blocks; the
  run index k = t mod 4 is the fastest axis, so each tile's four runs are consecutive points. After point `n` the
  accumulator holds: the update of the zero block when `n` starts a tile (n mod 4 = 0), else the update of what point
  `n − 1` left. The generated point-by-point contents are exactly this recursion, and at a tile's last run the output
  block is the accumulator. Unrolled over a tile: four updates from zero.
-/
import proofs.«127448_j2362232013179_1_alg».proof.Proof.Cases

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Point `t`'s blocks at their literal types: rows of `x`, integer weights, channel scales, channel zero points. -/
abbrev xblk (c : Dev nD) (t : Fin cfg0.N) : Vec F S1024x1024 .f32 := iblk m c 0 t
abbrev qblk (c : Dev nD) (t : Fin cfg0.N) : Vec F S1024x1024 .i32 := iblk m c 1 t
abbrev sblk (c : Dev nD) (t : Fin cfg0.N) : Vec F S1024x1 .f32 := iblk m c 2 t
abbrev zblk (c : Dev nD) (t : Fin cfg0.N) : Vec F S1024x1 .i32 := iblk m c 3 t

/-- Point `t`'s update of an accumulator. -/
def upd (c : Dev nD) (t : Fin cfg0.N) (prev : Vec F S1024x1024 .f32) : Vec F S1024x1024 .f32 :=
  k0_pay2 (xblk m c t) (qblk m c t) (zblk m c t) (sblk m c t) prev

/-- The accumulator after point `n`. -/
def accAt (c : Dev nD) : (n : ℕ) → n < cfg0.N → Vec F S1024x1024 .f32
  | 0, h => upd m c ⟨0, h⟩ k0_pay1
  | n + 1, h => if (n + 1) % 4 = 0 then upd m c ⟨n + 1, h⟩ k0_pay1 else upd m c ⟨n + 1, h⟩ (accAt c n (Nat.lt_of_succ_lt h))

theorem accAt_first (c : Dev nD) (n : ℕ) (h : n < cfg0.N) (h0 : n % 4 = 0) : accAt m c n h = upd m c ⟨n, h⟩ k0_pay1 := by
  cases n with
  | zero => rfl
  | succ n => exact if_pos h0

theorem accAt_next (c : Dev nD) (n : ℕ) (h : n + 1 < cfg0.N) (h0 : ¬(n + 1) % 4 = 0) :
    accAt m c (n + 1) h = upd m c ⟨n + 1, h⟩ (accAt m c n (Nat.lt_of_succ_lt h)) := if_neg h0

/-- The generated contents of the carried accumulator after each point are this recursion. -/
theorem scratch_eq (c : Dev nD) : ∀ (n : ℕ) (h : n < cfg0.N), (outsAt0 m c n h).2 = accAt m c n h
  | 0, h => by
    rw [outsAt0_A m c ⟨0, h⟩ (Nat.zero_mod _) (by show ¬(0 : ℕ) % 4 = 3; omega)]
    dsimp only
    exact Cases.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr (Nat.zero_mod _)) (fun hh => (by decide : ¬(0 : ℕ) % 4 = 3) ((hcond0_1 ⟨0, h⟩).mp hh)) (iblk m c 0 ⟨0, h⟩) (iblk m c 1 ⟨0, h⟩) (iblk m c 2 ⟨0, h⟩) (iblk m c 3 ⟨0, h⟩)
  | n + 1, h => by
    by_cases h0 : (n + 1) % 4 = 0
    · have h1 : ¬(n + 1) % 4 = 3 := by omega
      rw [outsAt0_A m c ⟨n + 1, h⟩ h0 h1, accAt_first m c (n + 1) h h0]
      dsimp only
      exact Cases.scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
    · rw [accAt_next m c n h h0]
      by_cases h1 : (n + 1) % 4 = 3
      · rw [outsAt0_C m c ⟨n + 1, h⟩ h0 h1]
        dsimp only
        refine (Cases.scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c (n + 1 - 1) (Nat.lt_of_le_of_lt (Nat.sub_le _ _) h)).2).trans ?_
        show k0_pay2 _ _ _ _ (outsAt0 m c n _).2 = k0_pay2 _ _ _ _ (accAt m c n _)
        rw [scratch_eq c n]
      · rw [outsAt0_B m c ⟨n + 1, h⟩ h0 h1]
        dsimp only
        refine (Cases.scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c (n + 1 - 1) (Nat.lt_of_le_of_lt (Nat.sub_le _ _) h)).2).trans ?_
        show k0_pay2 _ _ _ _ (outsAt0 m c n _).2 = k0_pay2 _ _ _ _ (accAt m c n _)
        rw [scratch_eq c n]

/-- At a tile's last run the output block is the accumulator. -/
theorem out_eq (c : Dev nD) (t : Fin cfg0.N) (h3 : t.val % 4 = 3) : (outsAt0 m c t.val t.isLt).1 = accAt m c t.val t.isLt := by
  have h0 : ¬t.val % 4 = 0 := by omega
  rw [← scratch_eq m c t.val t.isLt, outsAt0_C m c t h0 h3]
  dsimp only
  exact (Cases.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t) (outsAt0 m c (t.val - 1) (Nat.lt_of_le_of_lt (Nat.sub_le _ _) t.isLt)).2).trans
    (Cases.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t) (outsAt0 m c (t.val - 1) (Nat.lt_of_le_of_lt (Nat.sub_le _ _) t.isLt)).2).symm

/-- Over one tile: after its last run (point `a + 3`, `a` the tile's first point) the accumulator is four updates from zero. -/
theorem accAt_tile (c : Dev nD) (a : ℕ) (h : a + 3 < cfg0.N) (h0 : a % 4 = 0) :
    accAt m c (a + 3) h
      = upd m c ⟨a + 3, h⟩ (upd m c ⟨a + 2, Nat.lt_of_succ_lt h⟩ (upd m c ⟨a + 1, Nat.lt_of_succ_lt (Nat.lt_of_succ_lt h)⟩
          (upd m c ⟨a, Nat.lt_of_succ_lt (Nat.lt_of_succ_lt (Nat.lt_of_succ_lt h))⟩ k0_pay1))) := by
  rw [accAt_next m c (a + 2) h (by omega), accAt_next m c (a + 1) (Nat.lt_of_succ_lt h) (by omega),
    accAt_next m c a (Nat.lt_of_succ_lt (Nat.lt_of_succ_lt h)) (by omega), accAt_first m c a _ h0]

end Cert.KernelIdeal.Carry

end
-- ==== Proof.Layer.lean ====
/-
  A linear layer over integer weights dequantized per output channel, as ONE function on the extended reals:

      out[b, s, o] = ∑ i < 4096, x[b, s, i] · ((q[o, i] − z[o]) · scale[o])

  with the integers `q`, `z` read signed and exactly. Also stated over the flattened rows `r = 2048·b + s` (an
  8192 × 4096 matrix against a 16384 × 4096 one), and the one law used between the two programs: a sum over the 4096-long
  axis is the running total, from zero, of its four consecutive runs of 1024 — regrouping a finite sum in a commutative
  monoid, which needs no finiteness of the summands.
-/
import Idealize.ShloMosaic.PureOps.Ideal
import Idealize.ShloMosaic.PureOps.Ideal.Laws
import Idealize.ShloMosaic.Lib.ValueIdx

noncomputable section

open scoped BigOperators

namespace Cert.Dequant

open Idealize.ShloMosaic Idealize.ShloMosaic.ValueIdx

/-- One dequantized weight: the integer `q` minus the channel's zero point `z`, both read signed, times the channel's scale. -/
def weight (q z : BitVec 32) (s : EReal) : EReal :=
  (FloatOps.sitofp (F := Ideal) FTy.f32 q - FloatOps.sitofp (F := Ideal) FTy.f32 z) * s

/-- Position `k` of run `a` of the long axis: `1024·a + k`. -/
def run (a : Fin 4) (k : Fin 1024) : Fin 4096 :=
  ⟨a.val * 1024 + k.val, by have := a.isLt; have := k.isLt; omega⟩

@[simp] theorem run_val (a : Fin 4) (k : Fin 1024) : (run a k).val = a.val * 1024 + k.val := rfl

/-- The long axis is its four runs laid end to end. -/
def runEquiv : Fin 4 × Fin 1024 ≃ Fin 4096 where
  toFun p := run p.1 p.2
  invFun i := (⟨i.val / 1024, by have := i.isLt; omega⟩, ⟨i.val % 1024, Nat.mod_lt _ (by decide)⟩)
  left_inv p := by
    obtain ⟨a, k⟩ := p
    have ha := a.isLt; have hk := k.isLt
    refine Prod.ext (Fin.ext ?_) (Fin.ext ?_)
    · show (a.val * 1024 + k.val) / 1024 = a.val; omega
    · show (a.val * 1024 + k.val) % 1024 = k.val; omega
  right_inv i := by
    apply Fin.ext
    show i.val / 1024 * 1024 + i.val % 1024 = i.val
    omega

/-- A sum over the long axis is the running total, from zero, of the sums over its four runs. -/
theorem sum_four_runs {M : Type*} [AddCommMonoid M] (f : Fin 4096 → M) :
    ∑ i, f i = (((0 + ∑ k, f (run 0 k)) + ∑ k, f (run 1 k)) + ∑ k, f (run 2 k)) + ∑ k, f (run 3 k) := by
  rw [← Equiv.sum_comp runEquiv f, Fintype.sum_prod_type, Fin.sum_univ_four, zero_add]
  rfl

/-! ## Over the flattened rows -/

/-- Run `a`'s share of entry (r, o) of the product of the row matrix with the dequantized weights. -/
def part (xa : (⟨2, ![8192, 4096]⟩ : Shape).Idx → EReal) (qa : (⟨2, ![16384, 4096]⟩ : Shape).Idx → BitVec 32)
    (sa : (⟨2, ![16384, 1]⟩ : Shape).Idx → EReal) (za : (⟨2, ![16384, 1]⟩ : Shape).Idx → BitVec 32)
    (r : Fin 8192) (o : Fin 16384) (a : Fin 4) : EReal :=
  ∑ k : Fin 1024, xa (ix2 r (run a k)) * weight (qa (ix2 o (run a k))) (za (ix2 o (0 : Fin 1))) (sa (ix2 o (0 : Fin 1)))

/-- Entry (r, o) as the kernel accumulates it: from zero, run after run. -/
def rows (xa : (⟨2, ![8192, 4096]⟩ : Shape).Idx → EReal) (qa : (⟨2, ![16384, 4096]⟩ : Shape).Idx → BitVec 32)
    (sa : (⟨2, ![16384, 1]⟩ : Shape).Idx → EReal) (za : (⟨2, ![16384, 1]⟩ : Shape).Idx → BitVec 32) :
    (⟨2, ![8192, 16384]⟩ : Shape).Idx → EReal :=
  fun j => (((0 + part xa qa sa za (j 0) (j 1) 0) + part xa qa sa za (j 0) (j 1) 1) + part xa qa sa za (j 0) (j 1) 2)
    + part xa qa sa za (j 0) (j 1) 3

/-- The same entry as one sum over the whole long axis. -/
theorem rows_eq_sum (xa : (⟨2, ![8192, 4096]⟩ : Shape).Idx → EReal) (qa : (⟨2, ![16384, 4096]⟩ : Shape).Idx → BitVec 32)
    (sa : (⟨2, ![16384, 1]⟩ : Shape).Idx → EReal) (za : (⟨2, ![16384, 1]⟩ : Shape).Idx → BitVec 32)
    (j : (⟨2, ![8192, 16384]⟩ : Shape).Idx) :
    rows xa qa sa za j
      = ∑ i : Fin 4096, xa (ix2 (j 0) i) * weight (qa (ix2 (j 1) i)) (za (ix2 (j 1) (0 : Fin 1))) (sa (ix2 (j 1) (0 : Fin 1))) :=
  (sum_four_runs fun i => xa (ix2 (j 0) i) * weight (qa (ix2 (j 1) i)) (za (ix2 (j 1) (0 : Fin 1))) (sa (ix2 (j 1) (0 : Fin 1)))).symm

/-! ## Over the arguments as given -/

/-- The layer: entry (b, s, o) of the result from the four argument arrays. -/
def layer (x : (⟨3, ![4, 2048, 4096]⟩ : Shape).Idx → EReal) (q : (⟨2, ![16384, 4096]⟩ : Shape).Idx → BitVec 32)
    (sc : (⟨1, ![16384]⟩ : Shape).Idx → EReal) (z : (⟨1, ![16384]⟩ : Shape).Idx → BitVec 32) :
    (⟨3, ![4, 2048, 16384]⟩ : Shape).Idx → EReal :=
  fun j => ∑ i : Fin 4096, x (ix3 (j 0) (j 1) i) * weight (q (ix2 (j 2) i)) (z (ix1 (j 2))) (sc (ix1 (j 2)))

end Cert.Dequant

end
-- ==== Proof.Update.lean ====
/-
  One grid point's update of the accumulator, at the ideal values, read at an entry: with `xb` the point's 1024 × 1024
  block of rows, `qb` its block of integer weights and `zb`, `sb` the 1024 channels' zero points and scales (columns
  1024 × 1), the body leaves in the accumulator

      prev[p, q] + ∑ k < 1024, xb[p, k] · ((qb[q, k] − zb[q]) · sb[q]).

  The two narrowings to bf16 before the product are the identity on extended reals, the product contracts the second
  axis of both blocks into a zero accumulator, and each broadcast of a column repeats a channel's value along its row.
-/
import proofs.«127448_j2362232013179_1_alg».proof.Proof.Gen.KernelIdeal.Skeleton
import proofs.«127448_j2362232013179_1_alg».proof.Proof.Layer
import Idealize.ShloMosaic.Lib.ValueIdx
import Idealize.ShloMosaic.Lib.Pipeline.Value
import Idealize.ShloMosaic.PureOps.Ideal.Laws

noncomputable section

open scoped BigOperators

namespace Cert.KernelIdeal.Update

open Cert.KernelIdeal Cert.KernelIdeal.Gen Idealize.ShloMosaic Idealize.ShloMosaic.ValueIdx

/-! ### The product's operand indices, axis by axis -/

theorem lhs_axis0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c
theorem rhs_axis0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- The block product into a zero accumulator, at entry (p, q): rows of both operands contracted along their second axis. -/
theorem product_apply (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- A channel column broadcast along the row reads the channel's one entry. -/
theorem column_apply {α : Type} (v : S1024x1.Idx → α) (q k : Fin 1024) :
    broadcastTo S1024x1024 v Facts₀.broadcasts_S1024x1_S1024x1024 (ix2 q k) = v (ix2 q (0 : Fin 1)) :=
  broadcastTo_apply v _ (ix2 q k) (ix2 q (0 : Fin 1)) (fun a => match a with
    | ⟨0, _⟩ => by show q.val = if (1024 : Nat) = 1 then 0 else q.val; rw [if_neg (by decide)]
    | ⟨1, _⟩ => by show 0 = if (1 : Nat) = 1 then 0 else _; rw [if_pos rfl])

/-- The update as vectors: the shape casts to the same shape dropped. -/
theorem update_eq (xb : Vec Ideal S1024x1024 .f32) (qb : Vec Ideal S1024x1024 .i32) (zb : Vec Ideal S1024x1 .i32)
    (sb : Vec Ideal S1024x1 .f32) (prev : Vec Ideal S1024x1024 .f32) :
    k0_pay2 (F := Ideal) xb qb zb sb prev
      = addf prev (matmul dot_S1024x1024_S1024x1024_S1024x1024_1_1_0_0_n_n none
          (truncf .bf16 xb Facts₀.bitsLt_bf16_f32)
          (truncf .bf16 (mulf (subf (sitofp .f32 qb) (broadcastTo S1024x1024 (sitofp .f32 zb) Facts₀.broadcasts_S1024x1_S1024x1024))
            (broadcastTo S1024x1024 sb Facts₀.broadcasts_S1024x1_S1024x1024)) Facts₀.bitsLt_bf16_f32)
          (constant S1024x1024 .f32 0x00000000#32)) := by
  unfold k0_pay2
  simp only [shapeCast_self]

/-- The update at entry (p, q). -/
theorem update_apply (xb : Vec Ideal S1024x1024 .f32) (qb : Vec Ideal S1024x1024 .i32) (zb : Vec Ideal S1024x1 .i32)
    (sb : Vec Ideal S1024x1 .f32) (prev : Vec Ideal S1024x1024 .f32) (p q : Fin 1024) :
    k0_pay2 (F := Ideal) xb qb zb sb prev (ix2 p q)
      = prev (ix2 p q) + ∑ k : Fin 1024, xb (ix2 p k) * Cert.Dequant.weight (qb (ix2 q k)) (zb (ix2 q (0 : Fin 1))) (sb (ix2 q (0 : Fin 1))) := by
  rw [update_eq]
  refine (congrArg (prev (ix2 p q) + ·) (product_apply _ _ p q)).trans ?_
  refine congrArg (prev (ix2 p q) + ·) (Finset.sum_congr rfl fun k _ => ?_)
  show xb (ix2 p k) * ((FloatOps.sitofp (F := Ideal) .f32 (qb (ix2 q k)) - broadcastTo S1024x1024 (sitofp (F := Ideal) .f32 zb) _ (ix2 q k))
      * broadcastTo S1024x1024 sb _ (ix2 q k)) = _
  rw [column_apply, column_apply]
  rfl

/-- The accumulator's reset value is zero at every entry. -/
theorem reset_apply (j : S1024x1024.Idx) : k0_pay1 (F := Ideal) j = 0 := by
  unfold k0_pay1
  simp only [shapeCast_self]
  exact Ideal.ofBits_zero_f32

end Cert.KernelIdeal.Update

end
-- ==== Proof.Tile.lean ====
/-
  One tile's accumulator at an entry, over the arrays the region finds. Point `t` of the grid is tile row
  `t / 64`, tile column `(t / 4) mod 16` and run `t mod 4`; its block of rows starts at row `1024·(t / 64)` and long-axis
  position `1024·(t mod 4)`, its block of weights at channel `1024·((t / 4) mod 16)` and the same position, and its two
  channel columns at that channel. A tile's four runs share rows and channels and walk the long axis run by run, so after
  its last run entry (p, q) of the accumulator is the four-run total for row `1024·(t / 64) + p` and channel
  `1024·((t / 4) mod 16) + q`.
-/
import proofs.«127448_j2362232013179_1_alg».proof.Proof.Carry
import proofs.«127448_j2362232013179_1_alg».proof.Proof.Update

set_option maxRecDepth 16384

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx Cert.Dequant

variable {F : FTy → Type} [FloatOps F]
variable (m : (ℓ : Loc nD τ sig) → Buf (Elt F) ℓ)

/-- The arrays as the region finds them, at their literal types: the row matrix, the integer weights, the scale and
    zero-point columns. -/
abbrev xarr (c : Dev nD) : Vec F S8192x4096 .f32 := V m c main_v0
abbrev qarr (c : Dev nD) : Vec F S16384x4096 .i32 := V m c main_arg1
abbrev sarr (c : Dev nD) : Vec F S16384x1 .f32 := V m c main_v1
abbrev zarr (c : Dev nD) : Vec F S16384x1 .i32 := V m c main_v2

/-- The printed index maps in closed form, decided over the grid's 512 points. -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = t.val / 4 % 16 ∧ win0_2.index t (1 : Fin 2) = 0
    ∧ win0_3.index t (0 : Fin 2) = t.val / 4 % 16 ∧ win0_3.index t (1 : Fin 2) = 0
    ∧ win0_4.index t (0 : Fin 2) = t.val / 64 ∧ win0_4.index t (1 : Fin 2) = t.val / 4 % 16 :=
  (by decide +kernel : ∀ t : Fin grid0.N, _)

/-- The block of rows at point `t`, entry (p, k): row `1024·(t / 64) + p`, position `1024·(t mod 4) + k`. -/
theorem xblk_apply (c : Dev nD) (t : Fin cfg0.N) (p k : Fin 1024) (R : Fin 8192) (J : Fin 4096)
    (hR : R.val = t.val / 64 * 1024 + p.val) (hJ : J.val = t.val % 4 * 1024 + k.val) :
    Carry.xblk m c t (ix2 p k) = xarr m c (ix2 R J) := by
  obtain ⟨e0, e1, -⟩ := idx_facts t
  show iblk m c 0 t (ix2 p k) = _
  unfold iblk
  rw [View.read_apply]
  show V m c main_v0 (((cfg0.win 0).blk t).view.emb (ix2 p k)) = V m c main_v0 (ix2 R J)
  refine congrArg (V m c main_v0) (funext fun a => Fin.ext ?_)
  match a with
  | ⟨0, _⟩ => show win0_0.index t (0 : Fin 2) * 1024 + 1 * p.val = R.val; omega
  | ⟨1, _⟩ => show win0_0.index t (1 : Fin 2) * 1024 + 1 * k.val = J.val; omega

/-- The block of weights at point `t`, entry (q, k): channel `1024·((t / 4) mod 16) + q`, the same position. -/
theorem qblk_apply (c : Dev nD) (t : Fin cfg0.N) (q k : Fin 1024) (C : Fin 16384) (J : Fin 4096)
    (hC : C.val = t.val / 4 % 16 * 1024 + q.val) (hJ : J.val = t.val % 4 * 1024 + k.val) :
    Carry.qblk m c t (ix2 q k) = qarr m c (ix2 C J) := by
  obtain ⟨-, -, e2, e3, -⟩ := idx_facts t
  show iblk m c 1 t (ix2 q k) = _
  unfold iblk
  rw [View.read_apply]
  show V m c main_arg1 (((cfg0.win 1).blk t).view.emb (ix2 q k)) = V m c main_arg1 (ix2 C J)
  refine congrArg (V m c main_arg1) (funext fun a => Fin.ext ?_)
  match a with
  | ⟨0, _⟩ => show win0_1.index t (0 : Fin 2) * 1024 + 1 * q.val = C.val; omega
  | ⟨1, _⟩ => show win0_1.index t (1 : Fin 2) * 1024 + 1 * k.val = J.val; omega

/-- The scale column at point `t`, entry q: that channel's scale. -/
theorem sblk_apply (c : Dev nD) (t : Fin cfg0.N) (q : Fin 1024) (C : Fin 16384)
    (hC : C.val = t.val / 4 % 16 * 1024 + q.val) :
    Carry.sblk m c t (ix2 q (0 : Fin 1)) = sarr m c (ix2 C (0 : Fin 1)) := by
  obtain ⟨-, -, -, -, e4, e5, -⟩ := idx_facts t
  show iblk m c 2 t (ix2 q (0 : Fin 1)) = _
  unfold iblk
  rw [View.read_apply]
  show V m c main_v1 (((cfg0.win 2).blk t).view.emb (ix2 q (0 : Fin 1))) = V m c main_v1 (ix2 C (0 : Fin 1))
  refine congrArg (V m c main_v1) (funext fun a => Fin.ext ?_)
  match a with
  | ⟨0, _⟩ => show win0_2.index t (0 : Fin 2) * 1024 + 1 * q.val = C.val; omega
  | ⟨1, _⟩ => show win0_2.index t (1 : Fin 2) * 1 + 1 * 0 = 0; omega

/-- The zero-point column at point `t`, entry q: that channel's zero point. -/
theorem zblk_apply (c : Dev nD) (t : Fin cfg0.N) (q : Fin 1024) (C : Fin 16384)
    (hC : C.val = t.val / 4 % 16 * 1024 + q.val) :
    Carry.zblk m c t (ix2 q (0 : Fin 1)) = zarr m c (ix2 C (0 : Fin 1)) := by
  obtain ⟨-, -, -, -, -, -, e6, e7, -⟩ := idx_facts t
  show iblk m c 3 t (ix2 q (0 : Fin 1)) = _
  unfold iblk
  rw [View.read_apply]
  show V m c main_v2 (((cfg0.win 3).blk t).view.emb (ix2 q (0 : Fin 1))) = V m c main_v2 (ix2 C (0 : Fin 1))
  refine congrArg (V m c main_v2) (funext fun a => Fin.ext ?_)
  match a with
  | ⟨0, _⟩ => show win0_3.index t (0 : Fin 2) * 1024 + 1 * q.val = C.val; omega
  | ⟨1, _⟩ => show win0_3.index t (1 : Fin 2) * 1 + 1 * 0 = 0; omega

end Cert.KernelIdeal.Tile

/-! ## At the ideal values -/

namespace Cert.KernelIdeal.Tile

open Cert.KernelIdeal Cert.KernelIdeal.Gen Idealize.ShloMosaic Idealize.ShloMosaic.TcCoe Idealize.SL.Sem
open Idealize.ShloMosaic.ValueIdx Cert.Dequant

variable (m : (ℓ : Loc nD τ sig) → Buf (Elt Ideal) ℓ)

/-- One run's block product at entry (p, q) is that run's share for the entry's row and channel. -/
theorem run_share (c : Dev nD) (t : Fin cfg0.N) (e : Fin 4) (R : Fin 8192) (C : Fin 16384) (p q : Fin 1024)
    (hR : R.val = t.val / 64 * 1024 + p.val) (hC : C.val = t.val / 4 % 16 * 1024 + q.val) (he : e.val = t.val % 4) :
    ∑ k : Fin 1024, Carry.xblk m c t (ix2 p k)
        * weight (Carry.qblk m c t (ix2 q k)) (Carry.zblk m c t (ix2 q (0 : Fin 1))) (Carry.sblk m c t (ix2 q (0 : Fin 1)))
      = part (xarr m c) (qarr m c) (sarr m c) (zarr m c) R C e := by
  unfold part
  refine Finset.sum_congr rfl fun k _ => ?_
  rw [xblk_apply m c t p k R (run e k) hR (by rw [run_val, he]), qblk_apply m c t q k C (run e k) hC (by rw [run_val, he]),
    zblk_apply m c t q C hC, sblk_apply m c t q C hC]

/-- After a tile's last run (point `a + 3`, `a` its first point) entry (p, q) of the accumulator is the four-run total
    for the entry's row and channel. -/
theorem tile_value (c : Dev nD) (a : ℕ) (h : a + 3 < cfg0.N) (h0 : a % 4 = 0) (p q : Fin 1024) (R : Fin 8192) (C : Fin 16384)
    (hR : R.val = (a + 3) / 64 * 1024 + p.val) (hC : C.val = (a + 3) / 4 % 16 * 1024 + q.val) :
    Carry.accAt m c (a + 3) h (ix2 p q) = rows (xarr m c) (qarr m c) (sarr m c) (zarr m c) (ix2 R C) := by
  rw [Carry.accAt_tile m c a h h0]
  unfold Carry.upd
  rw [Update.update_apply, Update.update_apply, Update.update_apply, Update.update_apply, Update.reset_apply]
  rw [run_share m c ⟨a + 3, h⟩ 3 R C p q (by show R.val = (a + 3) / 64 * 1024 + p.val; exact hR) (by show C.val = (a + 3) / 4 % 16 * 1024 + q.val; exact hC) (by show 3 = (a + 3) % 4; omega),
    run_share m c ⟨a + 2, _⟩ 2 R C p q (by show R.val = (a + 2) / 64 * 1024 + p.val; omega) (by show C.val = (a + 2) / 4 % 16 * 1024 + q.val; omega) (by show 2 = (a + 2) % 4; omega),
    run_share m c ⟨a + 1, _⟩ 1 R C p q (by show R.val = (a + 1) / 64 * 1024 + p.val; omega) (by show C.val = (a + 1) / 4 % 16 * 1024 + q.val; omega) (by show 1 = (a + 1) % 4; omega),
    run_share m c ⟨a, _⟩ 0 R C p q (by show R.val = a / 64 * 1024 + p.val; omega) (by show C.val = a / 4 % 16 * 1024 + q.val; omega) (by show 0 = a % 4; omega)]
  rfl

end Cert.KernelIdeal.Tile

end
-- ==== Proof.Whole.lean ====
/-
  The whole result of the idealized kernel. The output window is written back at each tile's last run, 128 tiles of
  1024 × 1024 that tile the 8192 × 16384 product array, so after the region that array holds, entry by entry, the four-run
  total for its row and channel. The host lines around the region only re-index: the rows are `x` with its two leading axes
  flattened (row r is (r / 2048, r mod 2048)), the two channel columns are the channel vectors, and the result is the
  product array with its rows unflattened. Read at an entry (b, s, o) the result is therefore the layer.
-/
import proofs.«127448_j2362232013179_1_alg».proof.Proof.Tile
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

/-- The product array: entry (r, o) the four-run total of row r against channel o. -/
abbrev product (c : Dev nD) : Buf (Elt Ideal) ((c : Thread nD τ).loc main_v3) :=
  rows (Tile.xarr m c) (Tile.qarr m c) (Tile.sarr m c) (Tile.zarr m c)

/-- What a tile's last run writes back is the tile's block of the product array. -/
theorem flushed_eq (c : Dev nD) (t : Fin cfg0.N) (hf : (cfg0.win 4).flush t = true) :
    (dats m 0 c).flushed 4 t = ((cfg0.win 4).blk t).view.read (Elt Ideal) (product m c) := by
  have h3 : t.val % 4 = 3 := (flush0_4 t).mp hf
  obtain ⟨-, -, -, -, -, -, -, -, e8, e9⟩ := Tile.idx_facts t
  show (cfg0.win 4).cut (grid0.coords t) ((dats m 0 c).after 4 t) = _
  rw [after0_4, Carry.out_eq m c t h3]
  funext y
  show Carry.accAt m c t.val t.isLt y = _
  obtain ⟨p, q, rfl⟩ : ∃ (p q : Fin 1024), y = ix2 p q := ⟨y 0, y 1, eq_ix2 y⟩
  rw [View.read_apply]
  obtain ⟨n, hn⟩ := t
  have hN : n < 512 := lt_of_lt_of_eq hn N_0
  dsimp only at h3 e8 e9
  obtain ⟨a, rfl⟩ : ∃ a, n = a + 3 := ⟨n - 3, by omega⟩
  have hp := p.isLt
  have hq := q.isLt
  refine (Tile.tile_value m c a hn (by omega) p q ⟨(a + 3) / 64 * 1024 + p.val, by omega⟩ ⟨(a + 3) / 4 % 16 * 1024 + q.val, by omega⟩ rfl rfl).trans ?_
  refine congrArg (product m c) (funext fun d => Fin.ext ?_)
  match d with
  | ⟨0, _⟩ => show (a + 3) / 64 * 1024 + p.val = win0_4.index ⟨a + 3, hn⟩ (0 : Fin 2) * 1024 + 1 * p.val; omega
  | ⟨1, _⟩ => show (a + 3) / 4 % 16 * 1024 + q.val = win0_4.index ⟨a + 3, hn⟩ (1 : Fin 2) * 1024 + 1 * q.val; omega

/-- An entry is in point `t`'s block iff each coordinate is in the block's range. -/
theorem mem_blk (t : Fin cfg0.N) (i : S8192x16384.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every entry of the product array is in the block of its tile's last run. -/
theorem cover (i : S8192x16384.Idx) : ∃ t : Fin cfg0.N, (cfg0.win 4).flush t = true ∧ i ∈ ((cfg0.win 4).blk t).view.set := by
  have h0 : (i 0).val < 8192 := (i 0).isLt
  have h1 : (i 1).val < 16384 := (i 1).isLt
  have hlt : (i 0).val / 1024 * 64 + (i 1).val / 1024 * 4 + 3 < cfg0.N := by rw [show cfg0.N = 512 from N_0]; omega
  refine ⟨⟨(i 0).val / 1024 * 64 + (i 1).val / 1024 * 4 + 3, hlt⟩, (flush0_4 _).mpr (by show ((i 0).val / 1024 * 64 + (i 1).val / 1024 * 4 + 3) % 4 = 3; omega), ?_⟩
  obtain ⟨-, -, -, -, -, -, -, -, e8, e9⟩ := Tile.idx_facts ⟨(i 0).val / 1024 * 64 + (i 1).val / 1024 * 4 + 3, hlt⟩
  dsimp only at e8 e9
  rw [mem_blk]
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 1024 ≤ (i 1).val ∧ (i 1).val < win0_4.index _ (1 : Fin 2) * 1024 + 1024; omega

/-- So the product array ends holding the four-run totals. -/
theorem final (c : Dev nD) : (dats m 0 c).arrAt 4 cfg0.N = product m c :=
  (dats m 0 c).arrAt_eq_of_cover 4 (product m c) (flushed_eq m c) cover

end Cert.KernelIdeal.Whole

end
-- ==== Proof.Result.lean ====
/-
  The idealized kernel's result is the layer of its arguments. Before the region the host flattens the two leading axes
  of `x` (row r = 2048·b + s) and views the two channel vectors as columns; after it, it unflattens the rows of the product
  array. All three are re-indexings along the same row-major order, so entry (b, s, o) of the result is the four-run
  total of row 2048·b + s against channel o — one sum over the whole long axis, which is the layer's entry.
-/
import proofs.«127448_j2362232013179_1_alg».proof.Proof.Whole

set_option maxRecDepth 16384

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

/-- The four arguments at their literal types. -/
abbrev xin (c : Dev nD) : Vec Ideal S4x2048x4096 .f32 := m ((c : Thread nD τ).loc main_arg0)
abbrev qin (c : Dev nD) : Vec Ideal S16384x4096 .i32 := m ((c : Thread nD τ).loc main_arg1)
abbrev scin (c : Dev nD) : Vec Ideal S16384 .f32 := m ((c : Thread nD τ).loc main_arg2)
abbrev zin (c : Dev nD) : Vec Ideal S16384 .i32 := m ((c : Thread nD τ).loc main_arg3)

/-! ### The arrays the region finds, from the arguments -/

theorem xarr_eq (c : Dev nD) :
    Tile.xarr m c = shapeCast S8192x4096 (m ((c : Thread nD τ).loc main_arg0)) Facts₀.shapeCasts_S4x2048x4096_S8192x4096 := by
  show StableHlo.after hostOps0 (fun b => m (c, b)) (Proc.devRef .tc main_v0) = _
  after_results
  rfl

theorem sarr_eq (c : Dev nD) :
    Tile.sarr m c = shapeCast S16384x1 (m ((c : Thread nD τ).loc main_arg2)) Facts₀.shapeCasts_S16384_S16384x1 := by
  show StableHlo.after hostOps0 (fun b => m (c, b)) (Proc.devRef .tc main_v1) = _
  after_results
  rfl

theorem zarr_eq (c : Dev nD) :
    Tile.zarr m c = shapeCast S16384x1 (m ((c : Thread nD τ).loc main_arg3)) Facts₀.shapeCasts_S16384_S16384x1 := by
  show StableHlo.after hostOps0 (fun b => m (c, b)) (Proc.devRef .tc main_v2) = _
  after_results
  rfl

theorem qarr_eq (c : Dev nD) : Tile.qarr m c = qin m c := V_main_arg1 m c

/-- Row 2048·b + s of the row matrix is row (b, s) of `x`. -/
theorem xarr_apply (c : Dev nD) (b : Fin 4) (s : Fin 2048) (R : Fin 8192) (hR : R.val = b.val * 2048 + s.val) (i : Fin 4096) :
    Tile.xarr m c (ix2 R i) = xin m c (ix3 b s i) := by
  rw [xarr_eq]
  refine shapeCast_apply _ _ (ix2 R i) (ix3 b s i) ?_
  rw [Shape.rowMajor_val_three, Shape.rowMajor_val_two]
  show (b.val * 2048 + s.val) * 4096 + i.val = R.val * 4096 + i.val
  rw [hR]

/-- A channel column's one entry is the channel vector's. -/
theorem sarr_apply (c : Dev nD) (o : Fin 16384) :
    Tile.sarr m c (ix2 o (0 : Fin 1)) = scin m c (ix1 o) := by
  rw [sarr_eq]
  refine shapeCast_apply _ _ (ix2 o (0 : Fin 1)) (ix1 o) ?_
  rw [Shape.rowMajor_val_one, Shape.rowMajor_val_two]
  show o.val = o.val * 1 + 0
  omega

theorem zarr_apply (c : Dev nD) (o : Fin 16384) :
    Tile.zarr m c (ix2 o (0 : Fin 1)) = zin m c (ix1 o) := by
  rw [zarr_eq]
  refine shapeCast_apply _ _ (ix2 o (0 : Fin 1)) (ix1 o) ?_
  rw [Shape.rowMajor_val_one, Shape.rowMajor_val_two]
  show o.val = o.val * 1 + 0
  omega

/-! ### The result -/

/-- The result array: the product array with its rows unflattened. -/
abbrev result (c : Dev nD) : Buf (Elt Ideal) ((c : Thread nD τ).loc main_v4) :=
  shapeCast S4x2048x16384 (Whole.product m c) Facts₀.shapeCasts_S8192x16384_S4x2048x16384

/-- The host line after the region computes it from what the region leaves. -/
theorem tail_eq (c : Dev nD) : Pipeline.afterTail₀ cfgs (dats m) 0 (V0 m) [hostOps1] c main_v4 = result m c := by
  have e : Pipeline.withArrays (cfgs 0).spec c (V0 m c) (fun w => (dats m 0 c).arrAt w (cfgs 0).N) (Proc.devRef .tc main_v3)
      = Whole.product m c :=
    (Pipeline.withArrays_arr spec0 launch0.win.arr_inj c _ _ 4).trans (Whole.final m c)
  unfold Pipeline.afterTail₀
  show StableHlo.after hostOps1 _ (Proc.devRef .tc main_v4) = _
  after_results
  exact funext fun i => congrArg (fun X => shapeCast S4x2048x16384 X Facts₀.shapeCasts_S8192x16384_S4x2048x16384 i) e

/-- Entry (b, s, o) of the result is the layer's. -/
theorem result_eq_layer (c : Dev nD) :
    result m c = layer (m ((c : Thread nD τ).loc main_arg0)) (m ((c : Thread nD τ).loc main_arg1))
      (m ((c : Thread nD τ).loc main_arg2)) (m ((c : Thread nD τ).loc main_arg3)) := by
  funext j
  obtain ⟨b, s, o, rfl⟩ : ∃ (b : Fin 4) (s : Fin 2048) (o : Fin 16384), j = ix3 b s o := ⟨j 0, j 1, j 2, eq_ix3 j⟩
  have hb := b.isLt
  have hs := s.isLt
  refine (shapeCast_apply (s := S8192x16384) (t := S4x2048x16384) (Whole.product m c) _ (ix3 b s o) (ix2 (⟨b.val * 2048 + s.val, by omega⟩ : Fin 8192) o) (by
    show (S8192x16384.rowMajor (ix2 (⟨b.val * 2048 + s.val, by omega⟩ : Fin 8192) o)).val = (S4x2048x16384.rowMajor (ix3 b s o)).val
    rw [Shape.rowMajor_val_three, Shape.rowMajor_val_two]; rfl)).trans ?_
  refine (rows_eq_sum _ _ _ _ _).trans ?_
  show ∑ i : Fin 4096, Tile.xarr m c (ix2 (⟨b.val * 2048 + s.val, by omega⟩ : Fin 8192) i)
      * weight (Tile.qarr m c (ix2 o i)) (Tile.zarr m c (ix2 o (0 : Fin 1))) (Tile.sarr m c (ix2 o (0 : Fin 1)))
    = ∑ i : Fin 4096, xin m c (ix3 b s i) * weight (qin m c (ix2 o i)) (zin m c (ix1 o)) (scin m c (ix1 o))
  refine Finset.sum_congr rfl fun i _ => ?_
  rw [xarr_apply m c b s _ rfl i, qarr_eq, zarr_apply, sarr_apply]

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v4) = layer (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v4 (Pipeline.mem_restRefs_of main_v4 (by decide) (by decide))).trans (tail_eq m c)).trans (result_eq_layer m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefLayer.lean ====
/-
  The reference at the ideal values is the layer: its one `dot_general` contracts the long axis of `x` against the
  dequantized weight matrix `(q − z) · scale`, whose two broadcasts only repeat a channel's zero point and scale along
  the row, so entry (b, s, o) is `∑ i, x[b, s, i] · ((q[o, i] − z[o]) · scale[o])`.
-/
import proofs.«127448_j2362232013179_1_alg».proof.Proof.Gen.ReferenceIdeal.Read
import proofs.«127448_j2362232013179_1_alg».proof.Proof.Layer

noncomputable section

namespace Cert.ReferenceIdeal.AsLayer

open Cert.ReferenceIdeal Cert.ReferenceIdeal.Gen Cert.ReferenceIdeal.Read
open Idealize.ShloMosaic Idealize.ShloMosaic.ValueIdx

/-- The left operand's index: (b, s) of the result index, `i` on the long axis. -/
theorem lidx_eq (a : Fin 4) (b : Fin 2048) (o : Fin 16384) (i : Fin 4096) : lidx_main_v8 (ix3 a b o) i = ix3 a b i :=
  funext fun d => match d with | ⟨0, _⟩ => rfl | ⟨1, _⟩ => rfl | ⟨2, _⟩ => rfl

/-- The right operand's index: the output channel, `i` on the long axis. -/
theorem ridx_eq (a : Fin 4) (b : Fin 2048) (o : Fin 16384) (i : Fin 4096) : ridx_main_v8 (ix3 a b o) i = ix2 o i :=
  funext fun d => match d with | ⟨0, _⟩ => rfl | ⟨1, _⟩ => rfl

/-- Both broadcasts of a per-channel vector read it at the channel. -/
theorem zidx_eq (o : Fin 16384) (i : Fin 4096) : idx_main_v2 (idx_main_v3 (ix2 o i)) = ix1 o :=
  funext fun d => match d with | ⟨0, _⟩ => rfl
theorem sidx_eq (o : Fin 16384) (i : Fin 4096) : idx_main_v5 (idx_main_v6 (ix2 o i)) = ix1 o :=
  funext fun d => match d with | ⟨0, _⟩ => rfl

/-- The reference's result, stage by stage, is the layer of its four arguments. -/
theorem result_eq_layer (x0 : (⟨S4x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S16384, .i32⟩ : BufTy).Contents (Elt Ideal)) :
    val_main_v8 (F := Ideal) x0 x1 x2 x3 = Cert.Dequant.layer x0 x1 x2 x3 := by
  funext j
  obtain ⟨a, b, o, rfl⟩ : ∃ (a : Fin 4) (b : Fin 2048) (o : Fin 16384), j = ix3 a b o := ⟨j 0, j 1, j 2, eq_ix3 j⟩
  rw [val_main_v8_apply]
  show _ = ∑ i : Fin 4096, x0 (ix3 a b i) * Cert.Dequant.weight (x1 (ix2 o i)) (x3 (ix1 o)) (x2 (ix1 o))
  refine Finset.sum_congr rfl fun i _ => ?_
  rw [val_main_v7_apply, val_main_v4_apply, val_main_v0_apply, val_main_v3_apply, val_main_v2_apply, val_main_v1_apply,
    val_main_v6_apply, val_main_v5_apply, lidx_eq, ridx_eq, zidx_eq, sidx_eq]
  rfl

end Cert.ReferenceIdeal.AsLayer

end
-- ==== Proof.lean ====
/-
  A dense layer over per-channel dequantized integer weights: `out[b, s, o] = ∑ i, x[b, s, i] · ((q[o, i] − z[o]) · scale[o])`.

  The kernel flattens the rows of `x` to an 8192 × 4096 matrix and tiles the 8192 × 16384 product in 1024 × 1024 blocks,
  each accumulated over the four 1024-long runs of the long axis: the accumulator is zeroed at a tile's first run, every
  run adds the block product of the rows with the dequantized weights (narrowed to bf16 before the product, the identity
  on extended reals), and the tile is written out after its last run. The reference dequantizes the whole weight matrix
  and contracts it with `x` in one `dot_general`.

  Over the extended reals both are the same function of the four arguments: a sum over the long axis is the running
  total, from zero, of its four runs — a regrouping of a finite sum in a commutative monoid, so nothing is asked of the
  summands and the finiteness precondition is never opened. The kernel's rewriting pass changed nothing, so the statement
  relating the printed kernel to its idealization is trivial; each program's frame is its run with the results dropped.
-/
import proofs.«127448_j2362232013179_1_alg».proof.Defs
import proofs.«127448_j2362232013179_1_alg».proof.Proof.Gen.Kernel
import proofs.«127448_j2362232013179_1_alg».proof.Proof.Gen.Kernel.Skeleton
import proofs.«127448_j2362232013179_1_alg».proof.Proof.Gen.Kernel.Launch
import proofs.«127448_j2362232013179_1_alg».proof.Proof.Gen.Kernel.Points
import proofs.«127448_j2362232013179_1_alg».proof.Proof.Gen.Kernel.Frame
import proofs.«127448_j2362232013179_1_alg».proof.Proof.Gen.KernelIdeal
import proofs.«127448_j2362232013179_1_alg».proof.Proof.Gen.KernelIdeal.Skeleton
import proofs.«127448_j2362232013179_1_alg».proof.Proof.Gen.KernelIdeal.Launch
import proofs.«127448_j2362232013179_1_alg».proof.Proof.Gen.KernelIdeal.Points
import proofs.«127448_j2362232013179_1_alg».proof.Proof.Gen.KernelIdeal.Frame
import proofs.«127448_j2362232013179_1_alg».proof.Proof.Gen.ReferenceIdeal
import proofs.«127448_j2362232013179_1_alg».proof.Proof.Gen.Pre_finite_inputs
import proofs.«127448_j2362232013179_1_alg».proof.Proof.Gen.ReferenceIdeal.Run
import proofs.«127448_j2362232013179_1_alg».proof.Proof.Gen.ReferenceIdeal.Read
import proofs.«127448_j2362232013179_1_alg».proof.Proof.Result
import proofs.«127448_j2362232013179_1_alg».proof.Proof.RefLayer
import Idealize.ShloMosaic.Adequacy
import Idealize.ShloMosaic.Init

noncomputable section

namespace Cert.Proof

open Idealize.ShloMosaic Idealize.SL.Sem

/-- The printed kernel runs to its end and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is straight-line host code: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the printed kernel and its idealization. -/
theorem preserves : Cert.preserves_Kernel_KernelIdeal := trivial

/-- Both programs end with the layer of the (agreeing) arguments in their result array. -/
theorem algebraic : Cert.algebraic_KernelIdeal_ReferenceIdeal := by
  intro m ρ m' ρ' _ hagree
  refine ⟨fun c => Cert.Dequant.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.AsLayer.result_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
